-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v70)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v70) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v114) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S50000x128 .f32) (main_arg1 : IVec S2x800000 32) (main_arg2 : FVec F S128x128 .f32) (main_arg3 : FVec F S128 .f32) (main_arg4 : FVec F S128x64 .f32) (main_arg5 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S5000x128 : Shape := ⟨2, ![5000, 128]⟩
abbrev S800000x128 : Shape := ⟨2, ![800000, 128]⟩
abbrev S50000x1 : Shape := ⟨2, ![50000, 1]⟩
abbrev S1x128 : Shape := ⟨2, ![1, 128]⟩
abbrev S50000x64 : Shape := ⟨2, ![50000, 64]⟩
abbrev S5000x64 : Shape := ⟨2, ![5000, 64]⟩
abbrev S800000x64 : Shape := ⟨2, ![800000, 64]⟩
abbrev S1x64 : Shape := ⟨2, ![1, 64]⟩
abbrev S5000 : Shape := ⟨1, ![5000]⟩
abbrev S5000x1 : Shape := ⟨2, ![5000, 1]⟩

abbrev nBuf : Space → Nat
  | .hbm => 92
  | .vmem => 16
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S_, .f32⟩
  | .hbm, ⟨11, _⟩ => ⟨S50000, .f32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S_, .f32⟩
  | .hbm, ⟨21, _⟩ => ⟨S800000, .f32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S800000, .i32⟩
  | .hbm, ⟨29, _⟩ => ⟨S800000, .i1⟩
  | .hbm, ⟨30, _⟩ => ⟨S_, .i32⟩
  | .hbm, ⟨31, _⟩ => ⟨S800000, .i32⟩
  | .hbm, ⟨32, _⟩ => ⟨S800000, .i32⟩
  | .hbm, ⟨33, _⟩ => ⟨S800000, .i32⟩
  | .hbm, ⟨34, _⟩ => ⟨S800000x1, .i32⟩
  | .hbm, ⟨35, _⟩ => ⟨S800000, .f32⟩
  | .hbm, ⟨36, _⟩ => ⟨S_, .i32⟩
  | .hbm, ⟨37, _⟩ => ⟨S800000, .i32⟩
  | .hbm, ⟨38, _⟩ => ⟨S800000, .i1⟩
  | .hbm, ⟨39, _⟩ => ⟨S_, .i32⟩
  | .hbm, ⟨40, _⟩ => ⟨S800000, .i32⟩
  | .hbm, ⟨41, _⟩ => ⟨S800000, .i32⟩
  | .hbm, ⟨42, _⟩ => ⟨S800000, .i32⟩
  | .hbm, ⟨43, _⟩ => ⟨S800000x1, .i32⟩
  | .hbm, ⟨44, _⟩ => ⟨S800000, .f32⟩
  | .hbm, ⟨45, _⟩ => ⟨S800000, .f32⟩
  | .hbm, ⟨46, _⟩ => ⟨S50000, .f32⟩
  | .hbm, ⟨47, _⟩ => ⟨S50000x128, .f32⟩
  | .hbm, ⟨48, _⟩ => ⟨S_, .i32⟩
  | .hbm, ⟨49, _⟩ => ⟨S800000, .i32⟩
  | .hbm, ⟨50, _⟩ => ⟨S800000, .i1⟩
  | .hbm, ⟨51, _⟩ => ⟨S_, .i32⟩
  | .hbm, ⟨52, _⟩ => ⟨S800000, .i32⟩
  | .hbm, ⟨53, _⟩ => ⟨S800000, .i32⟩
  | .hbm, ⟨54, _⟩ => ⟨S800000, .i32⟩
  | .hbm, ⟨55, _⟩ => ⟨S800000x1, .i32⟩
  | .hbm, ⟨56, _⟩ => ⟨S800000x128, .f32⟩
  | .hbm, ⟨57, _⟩ => ⟨S800000x1, .f32⟩
  | .hbm, ⟨58, _⟩ => ⟨S800000x128, .f32⟩
  | .hbm, ⟨59, _⟩ => ⟨S800000x128, .f32⟩
  | .hbm, ⟨60, _⟩ => ⟨S_, .f32⟩
  | .hbm, ⟨61, _⟩ => ⟨S50000x128, .f32⟩
  | .hbm, ⟨62, _⟩ => ⟨S800000x1, .i32⟩
  | .hbm, ⟨63, _⟩ => ⟨S50000x128, .f32⟩
  | .hbm, ⟨64, _⟩ => ⟨S50000x1, .f32⟩
  | .hbm, ⟨65, _⟩ => ⟨S50000x128, .f32⟩
  | .hbm, ⟨66, _⟩ => ⟨S50000x128, .f32⟩
  | .hbm, ⟨67, _⟩ => ⟨S50000x128, .f32⟩
  | .hbm, ⟨68, _⟩ => ⟨S1x128, .f32⟩
  | .hbm, ⟨69, _⟩ => ⟨S50000x64, .f32⟩
  | .hbm, ⟨70, _⟩ => ⟨S_, .i32⟩
  | .hbm, ⟨71, _⟩ => ⟨S800000, .i32⟩
  | .hbm, ⟨72, _⟩ => ⟨S800000, .i1⟩
  | .hbm, ⟨73, _⟩ => ⟨S_, .i32⟩
  | .hbm, ⟨74, _⟩ => ⟨S800000, .i32⟩
  | .hbm, ⟨75, _⟩ => ⟨S800000, .i32⟩
  | .hbm, ⟨76, _⟩ => ⟨S800000, .i32⟩
  | .hbm, ⟨77, _⟩ => ⟨S800000x1, .i32⟩
  | .hbm, ⟨78, _⟩ => ⟨S800000x64, .f32⟩
  | .hbm, ⟨79, _⟩ => ⟨S800000x1, .f32⟩
  | .hbm, ⟨80, _⟩ => ⟨S800000x64, .f32⟩
  | .hbm, ⟨81, _⟩ => ⟨S800000x64, .f32⟩
  | .hbm, ⟨82, _⟩ => ⟨S_, .f32⟩
  | .hbm, ⟨83, _⟩ => ⟨S50000x64, .f32⟩
  | .hbm, ⟨84, _⟩ => ⟨S800000x1, .i32⟩
  | .hbm, ⟨85, _⟩ => ⟨S50000x64, .f32⟩
  | .hbm, ⟨86, _⟩ => ⟨S50000x1, .f32⟩
  | .hbm, ⟨87, _⟩ => ⟨S50000x64, .f32⟩
  | .hbm, ⟨88, _⟩ => ⟨S50000x64, .f32⟩
  | .hbm, ⟨89, _⟩ => ⟨S50000x64, .f32⟩
  | .hbm, ⟨90, _⟩ => ⟨S1x64, .f32⟩
  | .hbm, ⟨91, _⟩ => ⟨S50000x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S128x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S1x64, .f32⟩
  | .local _ .vmem, ⟨14, _⟩ => ⟨S5000x64, .f32⟩
  | .local _ .vmem, ⟨15, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_c : Ref sig .tc := ⟨.hbm, 12, rfl⟩
abbrev main_v5 : Ref sig .tc := ⟨.hbm, 13, rfl⟩
abbrev main_v6 : Ref sig .tc := ⟨.hbm, 14, rfl⟩
abbrev main_c_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_c_3 : Ref sig .tc := ⟨.hbm, 27, rfl⟩
abbrev main_v16 : Ref sig .tc := ⟨.hbm, 28, rfl⟩
abbrev main_v17 : Ref sig .tc := ⟨.hbm, 29, rfl⟩
abbrev main_c_4 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_c_5 : Ref sig .tc := ⟨.hbm, 36, rfl⟩
abbrev main_v23 : Ref sig .tc := ⟨.hbm, 37, rfl⟩
abbrev main_v24 : Ref sig .tc := ⟨.hbm, 38, rfl⟩
abbrev main_c_6 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_c_7 : Ref sig .tc := ⟨.hbm, 48, rfl⟩
abbrev main_v33 : Ref sig .tc := ⟨.hbm, 49, rfl⟩
abbrev main_v34 : Ref sig .tc := ⟨.hbm, 50, rfl⟩
abbrev main_c_8 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_9 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_c_10 : Ref sig .tc := ⟨.hbm, 70, rfl⟩
abbrev main_v52 : Ref sig .tc := ⟨.hbm, 71, rfl⟩
abbrev main_v53 : Ref sig .tc := ⟨.hbm, 72, rfl⟩
abbrev main_c_11 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_cst_12 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S50000 : S_.BroadcastsInDim S50000 (![] : Fin 0 → Fin S50000.rank)
  bcast_S_S800000 : S_.BroadcastsInDim S800000 (![] : Fin 0 → Fin S800000.rank)
  bcast_S800000_S800000x1_0 : S800000.BroadcastsInDim S800000x1 (![0] : Fin 1 → Fin S800000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  bcast_S50000x1_S50000x64_0_1 : S50000x1.BroadcastsInDim S50000x64 (![0, 1] : Fin 2 → Fin S50000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  reduces_S5000x64_S5000 : S5000x64.Reduces [1] S5000
  shapeCasts_S5000_S5000x1 : S5000.ShapeCasts S5000x1
  broadcasts_S5000x1_S5000x64 : S5000x1.Broadcasts S5000x64
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S5000x128_S128x128_S5000x128_1_0_0_1_n_n_wf : DotDims.WF S5000x128 S128x128 S5000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x64_S5000x64_1_0_0_1_n_n_wf : DotDims.WF S5000x128 S128x64 S5000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S128x64.size a
  hwx1_2 : ∀ i : grid1.Coords, EltTy.bits .f32 = 32 ∨ (Rect.block (s := S128x64) S128x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S50000x64.size a
  hwx1_3 : ∀ i : grid1.Coords, EltTy.bits .f32 = 32 ∨ (Rect.block (s := S50000x64) S5000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S50000x64.size a
  hwx2_2 : ∀ i : grid2.Coords, EltTy.bits .f32 = 32 ∨ (Rect.block (s := S50000x64) S5000x64.size (cc2_transform_2 i) (hinb2_2 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v49) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v50) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S128x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v51) S5000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v68) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v69) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v70) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S800000x128 : Shape := ⟨2, ![800000, 128]⟩
abbrev S50000x1 : Shape := ⟨2, ![50000, 1]⟩
abbrev S1x128 : Shape := ⟨2, ![1, 128]⟩
abbrev S50000x64 : Shape := ⟨2, ![50000, 64]⟩
abbrev S800000x64 : Shape := ⟨2, ![800000, 64]⟩
abbrev S1x64 : Shape := ⟨2, ![1, 64]⟩

abbrev nBuf : Space → Nat
  | .hbm => 152
  | .vmem => 0
  | .smem => 0
  | _ => 0

abbrev hbmTy0_0 (i : Nat) : BufTy := match i % 128 with
  | 0 => ⟨S50000x128, .f32⟩
  | 1 => ⟨S2x800000, .i32⟩
  | 2 => ⟨S128x128, .f32⟩
  | 3 => ⟨S128, .f32⟩
  | 4 => ⟨S128x64, .f32⟩
  | 5 => ⟨S64, .f32⟩
  | 6 => ⟨S1x800000, .i32⟩
  | 7 => ⟨S800000, .i32⟩
  | 8 => ⟨S1x800000, .i32⟩
  | 9 => ⟨S800000, .i32⟩
  | 10 => ⟨S_, .f32⟩
  | 11 => ⟨S50000x128, .f32⟩
  | 12 => ⟨S50000x128, .f32⟩
  | 13 => ⟨S50000x128, .f32⟩
  | 14 => ⟨S_, .f32⟩
  | 15 => ⟨S50000, .f32⟩
  | 16 => ⟨S_, .i32⟩
  | 17 => ⟨S800000, .i32⟩
  | 18 => ⟨S800000, .i1⟩
  | 19 => ⟨S_, .i32⟩
  | 20 => ⟨S800000, .i32⟩
  | 21 => ⟨S800000, .i32⟩
  | 22 => ⟨S800000, .i32⟩
  | 23 => ⟨S800000x1, .i32⟩
  | 24 => ⟨S_, .f32⟩
  | 25 => ⟨S800000, .f32⟩
  | 26 => ⟨S50000, .f32⟩
  | 27 => ⟨S_, .f32⟩
  | 28 => ⟨S50000, .f32⟩
  | 29 => ⟨S50000, .f32⟩
  | 30 => ⟨S50000, .f32⟩
  | 31 => ⟨S_, .i32⟩
  | 32 => ⟨S800000, .i32⟩
  | 33 => ⟨S800000, .i1⟩
  | 34 => ⟨S_, .i32⟩
  | 35 => ⟨S800000, .i32⟩
  | 36 => ⟨S800000, .i32⟩
  | 37 => ⟨S800000, .i32⟩
  | 38 => ⟨S800000x1, .i32⟩
  | 39 => ⟨S800000, .f32⟩
  | 40 => ⟨S_, .i32⟩
  | 41 => ⟨S800000, .i32⟩
  | 42 => ⟨S800000, .i1⟩
  | 43 => ⟨S_, .i32⟩
  | 44 => ⟨S800000, .i32⟩
  | 45 => ⟨S800000, .i32⟩
  | 46 => ⟨S800000, .i32⟩
  | 47 => ⟨S800000x1, .i32⟩
  | 48 => ⟨S800000, .f32⟩
  | 49 => ⟨S800000, .f32⟩
  | 50 => ⟨S_, .i32⟩
  | 51 => ⟨S800000, .i32⟩
  | 52 => ⟨S800000, .i1⟩
  | 53 => ⟨S_, .i32⟩
  | 54 => ⟨S800000, .i32⟩
  | 55 => ⟨S800000, .i32⟩
  | 56 => ⟨S800000, .i32⟩
  | 57 => ⟨S800000x1, .i32⟩
  | 58 => ⟨S800000x128, .f32⟩
  | 59 => ⟨S800000x1, .f32⟩
  | 60 => ⟨S800000x128, .f32⟩
  | 61 => ⟨S800000x128, .f32⟩
  | 62 => ⟨S_, .f32⟩
  | 63 => ⟨S50000x128, .f32⟩
  | 64 => ⟨S800000x1, .i32⟩
  | 65 => ⟨S50000x128, .f32⟩
  | 66 => ⟨S50000, .f32⟩
  | 67 => ⟨S50000x1, .f32⟩
  | 68 => ⟨S50000x128, .f32⟩
  | 69 => ⟨S50000x128, .f32⟩
  | 70 => ⟨S50000x128, .f32⟩
  | 71 => ⟨S1x128, .f32⟩
  | 72 => ⟨S50000x128, .f32⟩
  | 73 => ⟨S50000x128, .f32⟩
  | 74 => ⟨S_, .f32⟩
  | 75 => ⟨S50000x128, .f32⟩
  | 76 => ⟨S50000x128, .f32⟩
  | 77 => ⟨S50000x64, .f32⟩
  | 78 => ⟨S_, .f32⟩
  | 79 => ⟨S50000, .f32⟩
  | 80 => ⟨S_, .i32⟩
  | 81 => ⟨S800000, .i32⟩
  | 82 => ⟨S800000, .i1⟩
  | 83 => ⟨S_, .i32⟩
  | 84 => ⟨S800000, .i32⟩
  | 85 => ⟨S800000, .i32⟩
  | 86 => ⟨S800000, .i32⟩
  | 87 => ⟨S800000x1, .i32⟩
  | 88 => ⟨S_, .f32⟩
  | 89 => ⟨S800000, .f32⟩
  | 90 => ⟨S50000, .f32⟩
  | 91 => ⟨S_, .f32⟩
  | 92 => ⟨S50000, .f32⟩
  | 93 => ⟨S50000, .f32⟩
  | 94 => ⟨S50000, .f32⟩
  | 95 => ⟨S_, .i32⟩
  | 96 => ⟨S800000, .i32⟩
  | 97 => ⟨S800000, .i1⟩
  | 98 => ⟨S_, .i32⟩
  | 99 => ⟨S800000, .i32⟩
  | 100 => ⟨S800000, .i32⟩
  | 101 => ⟨S800000, .i32⟩
  | 102 => ⟨S800000x1, .i32⟩
  | 103 => ⟨S800000, .f32⟩
  | 104 => ⟨S_, .i32⟩
  | 105 => ⟨S800000, .i32⟩
  | 106 => ⟨S800000, .i1⟩
  | 107 => ⟨S_, .i32⟩
  | 108 => ⟨S800000, .i32⟩
  | 109 => ⟨S800000, .i32⟩
  | 110 => ⟨S800000, .i32⟩
  | 111 => ⟨S800000x1, .i32⟩
  | 112 => ⟨S800000, .f32⟩
  | 113 => ⟨S800000, .f32⟩
  | 114 => ⟨S_, .i32⟩
  | 115 => ⟨S800000, .i32⟩
  | 116 => ⟨S800000, .i1⟩
  | 117 => ⟨S_, .i32⟩
  | 118 => ⟨S800000, .i32⟩
  | 119 => ⟨S800000, .i32⟩
  | 120 => ⟨S800000, .i32⟩
  | 121 => ⟨S800000x1, .i32⟩
  | 122 => ⟨S800000x64, .f32⟩
  | 123 => ⟨S800000x1, .f32⟩
  | 124 => ⟨S800000x64, .f32⟩
  | 125 => ⟨S800000x64, .f32⟩
  | 126 => ⟨S_, .f32⟩
  | 127 => ⟨S50000x64, .f32⟩
  | _ => ⟨S50000x128, .f32⟩

abbrev hbmTy0_1 (i : Nat) : BufTy := match i % 128 with
  | 0 => ⟨S800000x1, .i32⟩
  | 1 => ⟨S50000x64, .f32⟩
  | 2 => ⟨S50000, .f32⟩
  | 3 => ⟨S50000x1, .f32⟩
  | 4 => ⟨S50000x64, .f32⟩
  | 5 => ⟨S50000x64, .f32⟩
  | 6 => ⟨S50000x64, .f32⟩
  | 7 => ⟨S1x64, .f32⟩
  | 8 => ⟨S50000x64, .f32⟩
  | 9 => ⟨S50000x64, .f32⟩
  | 10 => ⟨S_, .f32⟩
  | 11 => ⟨S50000, .f32⟩
  | 12 => ⟨S_, .f32⟩
  | 13 => ⟨S50000, .f32⟩
  | 14 => ⟨S50000, .f32⟩
  | 15 => ⟨S50000x1, .f32⟩
  | 16 => ⟨S50000x64, .f32⟩
  | 17 => ⟨S50000x64, .f32⟩
  | 18 => ⟨S50000x64, .f32⟩
  | 19 => ⟨S_, .f32⟩
  | 20 => ⟨S50000, .f32⟩
  | 21 => ⟨S50000x1, .f32⟩
  | 22 => ⟨S50000x64, .f32⟩
  | 23 => ⟨S50000x64, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_call0_cst : Ref sig .tc := ⟨.hbm, 10, rfl⟩
abbrev main_call0_v0 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_c : Ref sig .tc := ⟨.hbm, 16, rfl⟩
abbrev main_v7 : Ref sig .tc := ⟨.hbm, 17, rfl⟩
abbrev main_v8 : Ref sig .tc := ⟨.hbm, 18, rfl⟩
abbrev main_c_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_c_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_c_6 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_call1_cst : Ref sig .tc := ⟨.hbm, 74, rfl⟩
abbrev main_call1_v0 : Ref sig .tc := ⟨.hbm, 75, rfl⟩
abbrev main_v54 : Ref sig .tc := ⟨.hbm, 76, rfl⟩
abbrev main_v55 : Ref sig .tc := ⟨.hbm, 77, rfl⟩
abbrev main_cst_10 : Ref sig .tc := ⟨.hbm, 78, rfl⟩
abbrev main_v56 : Ref sig .tc := ⟨.hbm, 79, rfl⟩
abbrev main_c_11 : Ref sig .tc := ⟨.hbm, 80, rfl⟩
abbrev main_v57 : Ref sig .tc := ⟨.hbm, 81, rfl⟩
abbrev main_v58 : Ref sig .tc := ⟨.hbm, 82, rfl⟩
abbrev main_c_12 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_cst_13 : Ref sig .tc := ⟨.hbm, 88, rfl⟩
abbrev main_v63 : Ref sig .tc := ⟨.hbm, 89, rfl⟩
abbrev main_v64 : Ref sig .tc := ⟨.hbm, 90, rfl⟩
abbrev main_cst_14 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_c_15 : Ref sig .tc := ⟨.hbm, 95, rfl⟩
abbrev main_v68 : Ref sig .tc := ⟨.hbm, 96, rfl⟩
abbrev main_v69 : Ref sig .tc := ⟨.hbm, 97, rfl⟩
abbrev main_c_16 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_c_17 : Ref sig .tc := ⟨.hbm, 104, rfl⟩
abbrev main_v75 : Ref sig .tc := ⟨.hbm, 105, rfl⟩
abbrev main_v76 : Ref sig .tc := ⟨.hbm, 106, rfl⟩
abbrev main_c_18 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_c_19 : Ref sig .tc := ⟨.hbm, 114, rfl⟩
abbrev main_v83 : Ref sig .tc := ⟨.hbm, 115, rfl⟩
abbrev main_v84 : Ref sig .tc := ⟨.hbm, 116, rfl⟩
abbrev main_c_20 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_cst_21 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_cst_22 : Ref sig .tc := ⟨.hbm, 138, rfl⟩
abbrev main_v104 : Ref sig .tc := ⟨.hbm, 139, rfl⟩
abbrev main_cst_23 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_cst_24 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S50000x128 : S_.BroadcastsInDim S50000x128 (![] : Fin 0 → Fin S50000x128.rank)
  bcast_S_S50000 : S_.BroadcastsInDim S50000 (![] : Fin 0 → Fin S50000.rank)
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  bcast_S50000x1_S50000x64_0_1 : S50000x1.BroadcastsInDim S50000x64 (![0, 1] : Fin 2 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  reducesTo_S50000x64_S50000_d1 : S50000x64.ReducesTo [1] S50000
  h_S_ : 0 < S_.numel
  dot_S50000x128_S128x128_S50000x128_1_0_0_1_n_n_wf : DotDims.WF S50000x128 S128x128 S50000x128 [1] [0] [0] [1] [] []
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x64_S50000x64_1_0_0_1_n_n_wf : DotDims.WF S50000x128 S128x64 S50000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

class Facts : Prop extends Facts₀ where

variable [Facts]
-- ==== Proof.Spec.lean ====
/-
  The three dense stages of the two-layer graph convolution, each as ONE function of whole arrays on the extended
  reals, index by index. N = 50000 nodes, 128 input and hidden channels, 64 output channels.

  * `reluDot x w`         — (relu x) · w : entry (p, q) is the sum over k of max (x (p, k)) 0 · w (k, q);
  * `biasReluDot a b w`   — relu (a + b) · w with the bias b added along every row:
                            entry (p, q) is the sum over k of max (a (p, k) + b k) 0 · w (k, q);
  * `biasSoftmax z b`     — the row-wise softmax of z + b: with y (p, k) = z (p, k) + b k and
                            M p = max (−∞) (the maximum over k of y (p, k), folded from −∞),
                            entry (p, q) is exp (y (p, q) − M p) divided by the sum over k of exp (y (p, k) − M p).

  The zero and the −∞ are kept as the float words both programs print (0x00000000, 0xFF800000): the same word stands
  on both sides of every equation below, so it is never evaluated.
-/
import Idealize.ShloMosaic.PureOps.Ideal
import Idealize.ShloMosaic.PureOps.Ideal.Laws
import Idealize.ShloMosaic.Lib.ValueIdx

noncomputable section

namespace Cert.Gcn

open Idealize.ShloMosaic Idealize.ShloMosaic.ValueIdx

/-- The float word of +0.0 read on the extended reals. -/
abbrev zeroW : EReal := Ideal.ofBits .f32 0x00000000#32
/-- The float word of −∞ read on the extended reals. -/
abbrev negInfW : EReal := Ideal.ofBits .f32 0xFF800000#32

/-- (relu x) · w over [50000, 128] × [128, 128]. -/
def reluDot (x : FVec Ideal ⟨2, ![50000, 128]⟩ .f32) (w : FVec Ideal ⟨2, ![128, 128]⟩ .f32) :
    FVec Ideal ⟨2, ![50000, 128]⟩ .f32 :=
  fun i => ∑ k : Fin 128, max (x (ix2 (i 0) k)) zeroW * w (ix2 k (i 1))

/-- relu (a + b) · w over [50000, 128] × [128, 64], the bias b : [128] added along every row of a. -/
def biasReluDot (a : FVec Ideal ⟨2, ![50000, 128]⟩ .f32) (b : FVec Ideal ⟨1, ![128]⟩ .f32)
    (w : FVec Ideal ⟨2, ![128, 64]⟩ .f32) : FVec Ideal ⟨2, ![50000, 64]⟩ .f32 :=
  fun i => ∑ k : Fin 128, max (a (ix2 (i 0) k) + b (ix1 k)) zeroW * w (ix2 k (i 1))

/-- A row's maximum as both programs take it: the fold of max from −∞ over the row, then once more against −∞. -/
def rowTop (r : Fin 64 → EReal) : EReal :=
  max negInfW ((Finset.univ : Finset (Fin 64)).fold max negInfW r)

/-- Row p of z + b, the bias b : [64] added along the row. -/
def biasedRow (z : FVec Ideal ⟨2, ![50000, 64]⟩ .f32) (b : FVec Ideal ⟨1, ![64]⟩ .f32) (p : Fin 50000) : Fin 64 → EReal :=
  fun k => z (ix2 p k) + b (ix1 k)

/-- The row-wise softmax of z + b over [50000, 64]. -/
def biasSoftmax (z : FVec Ideal ⟨2, ![50000, 64]⟩ .f32) (b : FVec Ideal ⟨1, ![64]⟩ .f32) :
    FVec Ideal ⟨2, ![50000, 64]⟩ .f32 :=
  fun i => Ideal.div (Ideal.exp (biasedRow z b (i 0) (i 1) - rowTop (biasedRow z b (i 0))))
    (∑ k : Fin 64, Ideal.exp (biasedRow z b (i 0) k - rowTop (biasedRow z b (i 0))))

theorem reluDot_apply (x : FVec Ideal ⟨2, ![50000, 128]⟩ .f32) (w : FVec Ideal ⟨2, ![128, 128]⟩ .f32)
    (p : Fin 50000) (q : Fin 128) :
    reluDot x w (ix2 p q) = ∑ k : Fin 128, max (x (ix2 p k)) zeroW * w (ix2 k q) := rfl

theorem biasReluDot_apply (a : FVec Ideal ⟨2, ![50000, 128]⟩ .f32) (b : FVec Ideal ⟨1, ![128]⟩ .f32)
    (w : FVec Ideal ⟨2, ![128, 64]⟩ .f32) (p : Fin 50000) (q : Fin 64) :
    biasReluDot a b w (ix2 p q) = ∑ k : Fin 128, max (a (ix2 p k) + b (ix1 k)) zeroW * w (ix2 k q) := rfl

theorem biasSoftmax_apply (z : FVec Ideal ⟨2, ![50000, 64]⟩ .f32) (b : FVec Ideal ⟨1, ![64]⟩ .f32)
    (p : Fin 50000) (q : Fin 64) :
    biasSoftmax z b (ix2 p q) = Ideal.div (Ideal.exp (biasedRow z b p q - rowTop (biasedRow z b p)))
      (∑ k : Fin 64, Ideal.exp (biasedRow z b p k - rowTop (biasedRow z b p))) := rfl

end Cert.Gcn

end
-- ==== Proof.LibPlainDot.lean ====
/-
  A matrix product of an [R, K] operand by a [K, C] operand, contracted over the one shared axis (the
  dimension numbers lhs_contracting = [1], rhs_contracting = [0], no batch axes), read at an entry (p, q) on the
  extended reals: the plain sum over k of l(p, k) · r(k, q). Stated for ANY dimension-number record of that
  form, so that it serves every such product whatever the record's name and whatever R, K, C are.
-/
import Idealize.ShloMosaic.PureOps.Ideal.Laws
import Idealize.ShloMosaic.Lib.ValueIdx

noncomputable section

namespace Idealize.ShloMosaic.PlainDot

open Idealize.ShloMosaic Idealize.ShloMosaic.ValueIdx

variable {R K C : ℕ}

/-- The dimension numbers of a plain row-by-column product: the left operand's axis 1 is contracted with the right
    operand's axis 0; the left operand's axis 0 and the right operand's axis 1 survive, in that order; no batch axes. -/
structure IsPlain (d : DotDims ⟨2, ![R, K]⟩ ⟨2, ![K, C]⟩ ⟨2, ![R, C]⟩) : Prop where
  lc : d.lhsContracting = [1]
  rc : d.rhsContracting = [0]
  ln : d.lhsNonContracting = [0]
  rn : d.rhsNonContracting = [1]
  lb : d.lhsBatch = []
  rb : d.rhsBatch = []

variable {d : DotDims ⟨2, ![R, K]⟩ ⟨2, ![K, C]⟩ ⟨2, ![R, C]⟩}

/-- A coordinate of an index depends on the axis' position only. -/
private theorem coord_congr {s : Shape} (j : s.Idx) (a b : Nat) (ha : a < s.rank) (hb : b < s.rank) (e : a = b) :
    (j ⟨a, ha⟩).val = (j ⟨b, hb⟩).val := by subst e; rfl

/-- The left operand's row is the result's row. -/
theorem lhs_row (h : IsPlain d) (j : (⟨2, ![R, C]⟩ : Shape).Idx) (k : d.contr.Idx) :
    (d.lhsIdx j k 0).val = (j 0).val := by
  unfold DotDims.lhsIdx
  rw [dif_neg (by rw [h.lb]; exact List.not_mem_nil), dif_pos (by rw [h.ln]; exact List.mem_singleton.mpr rfl)]
  simp only [Fin.val_cast]
  exact coord_congr j _ _ _ _ (by simp [h.lb, h.ln])

/-- The right operand's column is the result's column. -/
theorem rhs_col (h : IsPlain d) (j : (⟨2, ![R, C]⟩ : Shape).Idx) (k : d.contr.Idx) :
    (d.rhsIdx j k 1).val = (j 1).val := by
  unfold DotDims.rhsIdx
  rw [dif_neg (by rw [h.rb]; exact List.not_mem_nil), dif_pos (by rw [h.rn]; exact List.mem_singleton.mpr rfl)]
  simp only [Fin.val_cast]
  exact coord_congr j _ _ _ _ (by simp [h.lb, h.ln, h.rn])

theorem contr_rank (h : IsPlain d) : d.contr.rank = 1 := by
  rw [d.rank_contr, h.lc]; rfl

theorem contr_size (h : IsPlain d) : d.contr.size ⟨0, by rw [contr_rank h]; exact Nat.one_pos⟩ = K := by
  rw [d.size_contr 0 (by rw [h.lc]; exact Nat.one_pos)]
  simp [h.lc]

/-- The product read at (p, q): the sum over the contracted axis. -/
theorem sum_apply (h : IsPlain d) {φ₁ φ₂ : FTy} (l : FVec Ideal ⟨2, ![R, K]⟩ φ₁) (r : FVec Ideal ⟨2, ![K, C]⟩ φ₂)
    (p : Fin R) (q : Fin C) :
    (∑ k : d.contr.Idx, l (d.lhsIdx (ix2 p q) k) * r (d.rhsIdx (ix2 p q) k)) = ∑ k : Fin K, l (ix2 p k) * r (ix2 k q) := by
  rw [← Equiv.sum_comp (contrEquiv1 d K (contr_rank h) (contr_size h)).symm]
  refine Finset.sum_congr rfl fun k _ => ?_
  have hk := contrEquiv1_symm_val d K (contr_rank h) (contr_size h) k
  have el : d.lhsIdx (ix2 p q) ((contrEquiv1 d K (contr_rank h) (contr_size h)).symm k) = ix2 p k := funext fun a => Fin.ext (by
    match a with
    | ⟨0, _⟩ => exact lhs_row h _ _
    | ⟨1, _⟩ => exact (d.lhsIdx_val_of_single h.lc _ _).trans hk)
  have er : d.rhsIdx (ix2 p q) ((contrEquiv1 d K (contr_rank h) (contr_size h)).symm k) = ix2 k q := funext fun a => Fin.ext (by
    match a with
    | ⟨0, _⟩ => exact (d.rhsIdx_val_of_single h.rc _ _).trans hk
    | ⟨1, _⟩ => exact rhs_col h _ _)
  rw [el, er]

/-- A kernel's matrix product into a zero accumulator, read at (p, q). -/
theorem matmul_zero_apply (h : IsPlain d) {φ₁ φ₂ : FTy} (prec : Option ContractPrecision)
    (l : FVec Ideal ⟨2, ![R, K]⟩ φ₁) (r : FVec Ideal ⟨2, ![K, C]⟩ φ₂) (p : Fin R) (q : Fin C) :
    FloatOps.matmul d prec l r (constant ⟨2, ![R, C]⟩ .f32 0x00000000#32) (ix2 p q) = ∑ k : Fin K, l (ix2 p k) * r (ix2 k q) := by
  rw [Ideal.matmul_constant_zero_apply]
  exact sum_apply h l r p q

/-- The host's matrix product read at (p, q). -/
theorem dotGeneral_apply (h : IsPlain d) {φ₁ φ₂ : FTy} (prec : Option ContractPrecision) (sched : HostSchedule)
    (l : FVec Ideal ⟨2, ![R, K]⟩ φ₁) (r : FVec Ideal ⟨2, ![K, C]⟩ φ₂) (p : Fin R) (q : Fin C) :
    FloatOps.dotGeneral d prec sched l r (ix2 p q) = ∑ k : Fin K, l (ix2 p k) * r (ix2 k q) := by
  rw [Ideal.dotGeneral_apply]
  exact sum_apply h l r p q

end Idealize.ShloMosaic.PlainDot

end
-- ==== Proof.RegionReluDot.lean ====
/-
  The first dense stage. The call runs on a grid of ten points; point t stages rows 5000 t … 5000 t + 4999 of the
  node features and the whole weight matrix, and writes back the product of the rectified rows with the weights.
  Those ten row blocks tile the result array, so after the call the array holds (relu x) · w.
-/
import proofs.«142240_j41059887350098_1_alg».proof.Proof.Gen.KernelIdeal.Frame
import proofs.«142240_j41059887350098_1_alg».proof.Proof.Spec
import proofs.«142240_j41059887350098_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen Cert.Gcn

variable (V : (c : Dev nD) → (b : Ref sig .tc) → Buf (Elt Ideal) ((c : Thread nD τ).loc b))

theorem hz : (![0, 0] : Fin 2 → Nat) = fun _ => 0 := funext fun a => by fin_cases a <;> rfl

/-- The body's product at an entry: the rectified row of the feature block against a column of the weights. -/
theorem pay0_apply (x0 : Vec Ideal S5000x128 .f32) (x1 : Vec Ideal S128x128 .f32) (p : Fin 5000) (q : Fin 128) :
    k0_pay1 (F := Ideal) x0 x1 (ix2 p q) = ∑ k : Fin 128, max (x0 (ix2 p k)) zeroW * x1 (ix2 k q) := by
  unfold k0_pay1
  exact PlainDot.matmul_zero_apply (d := dot_S5000x128_S128x128_S5000x128_1_0_0_1_n_n) ⟨rfl, rfl, rfl, rfl, rfl, rfl⟩ none _ _ p q

/-- Where the grid puts each window's block: point t takes row block t of the features and of the result, and the
    whole weight matrix. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 ∧ t.val < 10 :=
  (by decide +kernel : ∀ t : Fin grid0.N, _)

/-- The feature block and the weight block of point t, at their literal types. -/
abbrev xblk (c : Dev nD) (t : Fin cfg0.N) : Vec Ideal S5000x128 .f32 := iblk0 V c 0 t
abbrev wblk (c : Dev nD) (t : Fin cfg0.N) : Vec Ideal S128x128 .f32 := iblk0 V c 1 t

/-- Row p of point t's feature block is row 5000 t + p of the features. -/
theorem xblk_apply (c : Dev nD) (t : Fin cfg0.N) (p : Fin 5000) (k : Fin 128) (r : Fin 50000)
    (hr : r.val = t.val * 5000 + p.val) :
    xblk V c t (ix2 p k) = (V c main_arg0 : S50000x128.Idx → EReal) (ix2 r k) := by
  obtain ⟨e0, e1, -⟩ := idx_facts0 t
  show (V c main_arg0 : S50000x128.Idx → EReal) (((cfg0.win 0).blk t).view.emb (ix2 p k)) = _
  refine congrArg _ (funext fun a => Fin.ext ?_)
  match a with
  | ⟨0, _⟩ => show win0_0.index t (0 : Fin 2) * 5000 + 1 * p.val = r.val; rw [e0, hr]; omega
  | ⟨1, _⟩ => show win0_0.index t (1 : Fin 2) * 128 + 1 * k.val = k.val; rw [e1]; omega

/-- Every point's weight block is the whole weight matrix. -/
theorem wblk_apply (c : Dev nD) (t : Fin cfg0.N) (k : Fin 128) (q : Fin 128) :
    wblk V c t (ix2 k q) = (V c main_arg2 : S128x128.Idx → EReal) (ix2 k q) := by
  obtain ⟨-, -, e2, e3, -⟩ := idx_facts0 t
  show (V c main_arg2 : S128x128.Idx → EReal) (((cfg0.win 1).blk t).view.emb (ix2 k q)) = _
  refine congrArg _ (funext fun a => Fin.ext ?_)
  match a with
  | ⟨0, _⟩ => show win0_1.index t (0 : Fin 2) * 128 + 1 * k.val = k.val; rw [e2]; omega
  | ⟨1, _⟩ => show win0_1.index t (1 : Fin 2) * 128 + 1 * q.val = q.val; rw [e3]; omega

/-- What point t writes back is row block t of (relu x) · w. -/
theorem flushed0_eq (c : Dev nD) (t : Fin cfg0.N) :
    (dat0 V c).flushed 2 t = ((cfg0.win 2).blk t).view.read (Elt Ideal) (reluDot (V c main_arg0) (V c main_arg2)) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x128) hz]
  obtain ⟨-, -, -, -, e4, e5, e6⟩ := idx_facts0 t
  funext j
  obtain ⟨p, q, rfl⟩ : ∃ (p : Fin 5000) (q : Fin 128), j = ix2 p q := ⟨j 0, j 1, eq_ix2 j⟩
  have hp : p.val < 5000 := p.isLt
  have hr : t.val * 5000 + p.val < 50000 := by omega
  have hemb : ((cfg0.win 2).blk t).view.emb (ix2 p q) = (ix2 (⟨t.val * 5000 + p.val, hr⟩ : Fin 50000) q : S50000x128.Idx) := by
    funext a; apply Fin.ext
    match a with
    | ⟨0, _⟩ => show win0_2.index t (0 : Fin 2) * 5000 + 1 * p.val = t.val * 5000 + p.val; rw [e4]; omega
    | ⟨1, _⟩ => show win0_2.index t (1 : Fin 2) * 128 + 1 * q.val = q.val; rw [e5]; omega
  show k0_pay1 (F := Ideal) (xblk V c t) (wblk V c t) (ix2 p q)
    = reluDot (V c main_arg0) (V c main_arg2) (((cfg0.win 2).blk t).view.emb (ix2 p q))
  rw [hemb, reluDot_apply, pay0_apply]
  refine Finset.sum_congr rfl fun k _ => ?_
  rw [xblk_apply V c t p k ⟨t.val * 5000 + p.val, hr⟩ rfl, wblk_apply V c t k q]

/-- An index of the result array is in point t's block iff each coordinate is in the block's range on its axis. -/
theorem mem_blk0 (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v32).slice (win0_2.rect t)).set ↔ _
  rw [View.set_slice_whole, Rect.mem_set_unit]
  exact Iff.rfl

/-- Every point of the grid: one per row block. -/
theorem idx_onto0 : ∀ b : Fin 10, ∃ t : Fin cfg0.N, t.val = b.val :=
  (by decide +kernel : ∀ b : Fin 10, ∃ t : Fin grid0.N, t.val = b.val)

/-- The ten row blocks tile the result array: row r lies in block r / 5000. -/
theorem cover0 (i : S50000x128.Idx) : ∃ t : Fin cfg0.N, (cfg0.win 2).flush t = true ∧ i ∈ ((cfg0.win 2).blk t).view.set := by
  have hi0 : (i 0).val < 50000 := (i 0).isLt
  have hi1 : (i 1).val < 128 := (i 1).isLt
  obtain ⟨t, ht⟩ := idx_onto0 ⟨(i 0).val / 5000, by omega⟩
  have ht' : t.val = (i 0).val / 5000 := ht
  obtain ⟨-, -, -, -, e4, e5, -⟩ := idx_facts0 t
  refine ⟨t, flush0_2 t, ?_⟩
  rw [mem_blk0]
  intro a
  match a with
  | ⟨0, _⟩ => show win0_2.index t (0 : Fin 2) * 5000 ≤ (i 0).val ∧ (i 0).val < win0_2.index t (0 : Fin 2) * 5000 + 5000; rw [e4]; omega
  | ⟨1, _⟩ => show win0_2.index t (1 : Fin 2) * 128 ≤ (i 1).val ∧ (i 1).val < win0_2.index t (1 : Fin 2) * 128 + 128; rw [e5]; omega

/-- After the first call its result array is (relu x) · w of the arrays the call found. -/
theorem region0_value (c : Dev nD) :
    (dat0 V c).arrAt 2 cfg0.N = reluDot (V c main_arg0) (V c main_arg2) :=
  (dat0 V c).arrAt_eq_of_cover 2 _ (fun t _ => flushed0_eq V c t) (cover0)

end Cert.KernelIdeal.Hand

end
-- ==== Proof.RegionBiasReluDot.lean ====
/-
  The second dense stage: relu (a + b) · w on the same grid of ten row blocks; the bias arrives as a one-row array.
-/
import proofs.«142240_j41059887350098_1_alg».proof.Proof.Gen.KernelIdeal.Frame
import proofs.«142240_j41059887350098_1_alg».proof.Proof.Spec
import proofs.«142240_j41059887350098_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen Cert.Gcn

variable (V : (c : Dev nD) → (b : Ref sig .tc) → Buf (Elt Ideal) ((c : Thread nD τ).loc b))

theorem hz1 : (![0, 0] : Fin 2 → Nat) = fun _ => 0 := funext fun a => by fin_cases a <;> rfl

/-- The body's product at an entry: the row of the aggregate block plus the bias, rectified, against a column of the
    weights. -/
theorem pay1_apply (x0 : Vec Ideal S5000x128 .f32) (x2 : Vec Ideal S1x128 .f32) (x9 : Vec Ideal S128x64 .f32)
    (p : Fin 5000) (q : Fin 64) :
    k1_pay1 (F := Ideal) x0 x2 x9 (ix2 p q)
      = ∑ k : Fin 128, max (x0 (ix2 p k) + x2 (ix2 (0 : Fin 1) k)) zeroW * x9 (ix2 k q) := by
  unfold k1_pay1
  refine (PlainDot.matmul_zero_apply (d := dot_S5000x128_S128x64_S5000x64_1_0_0_1_n_n) ⟨rfl, rfl, rfl, rfl, rfl, rfl⟩ none _ _ p q).trans ?_
  refine Finset.sum_congr rfl fun k _ => ?_
  show max ((shapeCast S5000x128 x0 shapeCasts_S5000x128_S5000x128) (ix2 p k)
      + (broadcastTo S5000x128 (shapeCast S1x128 x2 shapeCasts_S1x128_S1x128) broadcasts_S1x128_S5000x128) (ix2 p k)) zeroW
    * x9 (ix2 k q) = _
  rw [shapeCast_self, shapeCast_self, broadcastTo_1b_ab_apply]

/-- Where the grid puts each window's block: point t takes row block t of the aggregate and of the result, and the
    whole bias row and weight matrix. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 ∧ t.val < 10 :=
  (by decide +kernel : ∀ t : Fin grid1.N, _)

/-- The aggregate block, the bias row and the weight block of point t, at their literal types. -/
abbrev ablk (c : Dev nD) (t : Fin cfg1.N) : Vec Ideal S5000x128 .f32 := iblk1 V c 0 t
abbrev bblk (c : Dev nD) (t : Fin cfg1.N) : Vec Ideal S1x128 .f32 := iblk1 V c 1 t
abbrev wblk1 (c : Dev nD) (t : Fin cfg1.N) : Vec Ideal S128x64 .f32 := iblk1 V c 2 t

/-- Row p of point t's aggregate block is row 5000 t + p of the aggregate. -/
theorem ablk_apply (c : Dev nD) (t : Fin cfg1.N) (p : Fin 5000) (k : Fin 128) (r : Fin 50000)
    (hr : r.val = t.val * 5000 + p.val) :
    ablk V c t (ix2 p k) = (V c main_v49 : S50000x128.Idx → EReal) (ix2 r k) := by
  obtain ⟨e0, e1, -⟩ := idx_facts1 t
  show (V c main_v49 : S50000x128.Idx → EReal) (((cfg1.win 0).blk t).view.emb (ix2 p k)) = _
  refine congrArg _ (funext fun a => Fin.ext ?_)
  match a with
  | ⟨0, _⟩ => show win1_0.index t (0 : Fin 2) * 5000 + 1 * p.val = r.val; rw [e0, hr]; omega
  | ⟨1, _⟩ => show win1_0.index t (1 : Fin 2) * 128 + 1 * k.val = k.val; rw [e1]; omega

/-- Every point's bias block is the whole bias row. -/
theorem bblk_apply (c : Dev nD) (t : Fin cfg1.N) (k : Fin 128) :
    bblk V c t (ix2 (0 : Fin 1) k) = (V c main_v50 : S1x128.Idx → EReal) (ix2 (0 : Fin 1) k) := by
  obtain ⟨-, -, e2, e3, -⟩ := idx_facts1 t
  show (V c main_v50 : S1x128.Idx → EReal) (((cfg1.win 1).blk t).view.emb (ix2 (0 : Fin 1) k)) = _
  refine congrArg _ (funext fun a => Fin.ext ?_)
  match a with
  | ⟨0, _⟩ => show win1_1.index t (0 : Fin 2) * 1 + 1 * 0 = 0; rw [e2]
  | ⟨1, _⟩ => show win1_1.index t (1 : Fin 2) * 128 + 1 * k.val = k.val; rw [e3]; omega

/-- Every point's weight block is the whole weight matrix. -/
theorem wblk1_apply (c : Dev nD) (t : Fin cfg1.N) (k : Fin 128) (q : Fin 64) :
    wblk1 V c t (ix2 k q) = (V c main_arg4 : S128x64.Idx → EReal) (ix2 k q) := by
  obtain ⟨-, -, -, -, e4, e5, -⟩ := idx_facts1 t
  show (V c main_arg4 : S128x64.Idx → EReal) (((cfg1.win 2).blk t).view.emb (ix2 k q)) = _
  refine congrArg _ (funext fun a => Fin.ext ?_)
  match a with
  | ⟨0, _⟩ => show win1_2.index t (0 : Fin 2) * 128 + 1 * k.val = k.val; rw [e4]; omega
  | ⟨1, _⟩ => show win1_2.index t (1 : Fin 2) * 64 + 1 * q.val = q.val; rw [e5]; omega

/-- What point t writes back is row block t of relu (a + b) · w. -/
theorem flushed1_eq (c : Dev nD) (t : Fin cfg1.N) :
    (dat1 V c).flushed 3 t = ((cfg1.win 3).blk t).view.read (Elt Ideal)
      (biasReluDot (V c main_v49) (fun j => (V c main_v50 : S1x128.Idx → EReal) (ix2 0 (j 0))) (V c main_arg4)) := by
  show (cfg1.win 3).cut (grid1.coords t) ((dat1 V c).after 3 t) = _
  rw [after1_3]
  unfold out1_3
  rw [View.canon_unit_zero hz1]
  simp only [View.ld_unit_zero (S := S5000x128) hz1, View.ld_unit_zero (S := S1x128) hz1, View.ld_unit_zero (S := S128x64) hz1]
  obtain ⟨-, -, -, -, -, -, e6, e7, e8⟩ := idx_facts1 t
  funext j
  obtain ⟨p, q, rfl⟩ : ∃ (p : Fin 5000) (q : Fin 64), j = ix2 p q := ⟨j 0, j 1, eq_ix2 j⟩
  have hp : p.val < 5000 := p.isLt
  have hr : t.val * 5000 + p.val < 50000 := by omega
  have hemb : ((cfg1.win 3).blk t).view.emb (ix2 p q) = (ix2 (⟨t.val * 5000 + p.val, hr⟩ : Fin 50000) q : S50000x64.Idx) := by
    funext a; apply Fin.ext
    match a with
    | ⟨0, _⟩ => show win1_3.index t (0 : Fin 2) * 5000 + 1 * p.val = t.val * 5000 + p.val; rw [e6]; omega
    | ⟨1, _⟩ => show win1_3.index t (1 : Fin 2) * 64 + 1 * q.val = q.val; rw [e7]; omega
  show k1_pay1 (F := Ideal) (ablk V c t) (bblk V c t) (wblk1 V c t) (ix2 p q)
    = biasReluDot (V c main_v49) (fun j => (V c main_v50 : S1x128.Idx → EReal) (ix2 0 (j 0))) (V c main_arg4)
        (((cfg1.win 3).blk t).view.emb (ix2 p q))
  rw [hemb, biasReluDot_apply, pay1_apply]
  refine Finset.sum_congr rfl fun k _ => ?_
  rw [ablk_apply V c t p k ⟨t.val * 5000 + p.val, hr⟩ rfl, bblk_apply V c t k, wblk1_apply V c t k q]

/-- An index of the result array is in point t's block iff each coordinate is in the block's range on its axis. -/
theorem mem_blk1 (t : Fin cfg1.N) (i : S50000x64.Idx) :
    i ∈ ((cfg1.win 3).blk t).view.set ↔ ∀ a : Fin 2, win1_3.index t a * S5000x64.size a ≤ (i a).val ∧ (i a).val < win1_3.index t a * S5000x64.size a + S5000x64.size a := by
  show i ∈ ((View.whole main_v51).slice (win1_3.rect t)).set ↔ _
  rw [View.set_slice_whole, Rect.mem_set_unit]
  exact Iff.rfl

/-- Every point of the grid: one per row block. -/
theorem idx_onto1 : ∀ b : Fin 10, ∃ t : Fin cfg1.N, t.val = b.val :=
  (by decide +kernel : ∀ b : Fin 10, ∃ t : Fin grid1.N, t.val = b.val)

/-- The ten row blocks tile the result array: row r lies in block r / 5000. -/
theorem cover1 (i : S50000x64.Idx) : ∃ t : Fin cfg1.N, (cfg1.win 3).flush t = true ∧ i ∈ ((cfg1.win 3).blk t).view.set := by
  have hi0 : (i 0).val < 50000 := (i 0).isLt
  have hi1 : (i 1).val < 64 := (i 1).isLt
  obtain ⟨t, ht⟩ := idx_onto1 ⟨(i 0).val / 5000, by omega⟩
  have ht' : t.val = (i 0).val / 5000 := ht
  obtain ⟨-, -, -, -, -, -, e6, e7, -⟩ := idx_facts1 t
  refine ⟨t, flush1_3 t, ?_⟩
  rw [mem_blk1]
  intro a
  match a with
  | ⟨0, _⟩ => show win1_3.index t (0 : Fin 2) * 5000 ≤ (i 0).val ∧ (i 0).val < win1_3.index t (0 : Fin 2) * 5000 + 5000; rw [e6]; omega
  | ⟨1, _⟩ => show win1_3.index t (1 : Fin 2) * 64 ≤ (i 1).val ∧ (i 1).val < win1_3.index t (1 : Fin 2) * 64 + 64; rw [e7]; omega

/-- After the second call its result array is relu (a + b) · w of the arrays the call found, b the one row of the
    bias operand. -/
theorem region1_value (c : Dev nD) :
    (dat1 V c).arrAt 3 cfg1.N
      = biasReluDot (V c main_v49) (fun j => (V c main_v50 : S1x128.Idx → EReal) (ix2 0 (j 0))) (V c main_arg4) :=
  (dat1 V c).arrAt_eq_of_cover 3 _ (fun t _ => flushed1_eq V c t) (cover1)

end Cert.KernelIdeal.Hand

end
-- ==== Proof.RegionSoftmax.lean ====
/-
  The last stage: the row-wise softmax of z + b on the grid of ten row blocks; the bias arrives as a one-row array.

  First one entry of the block the body stores, as a term of the two blocks it loads: the exponential of the entry of
  x0 + x1 less the row's top, divided by the sum of those exponentials along the row (`Softmax.pay_apply`). Then the
  blocks as parts of the arrays: the input block of point t is rows 5000 t … 5000 t + 4999 of z, the bias block is the
  whole one-row array, so what point t writes back is block t of the softmax of z + b (`Softmax.flushed_eq`); the ten
  blocks cover the array, row r in the block of point r / 5000 (`Softmax.cover`).
-/
import proofs.«142240_j41059887350098_1_alg».proof.Proof.Gen.KernelIdeal.Frame
import proofs.«142240_j41059887350098_1_alg».proof.Proof.Spec
import proofs.«142240_j41059887350098_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen Cert.Gcn

namespace Softmax

/-! ## One entry of the stored block -/

/-- A one-column array read at (p, 0) is the vector at p. -/
theorem cast_col (v : FVec Ideal S5000 .f32) (h : S5000.ShapeCasts S5000x1) (p : Fin 5000) (z : Fin 1) :
    shapeCast S5000x1 v h (ix2 p z) = v (ix1 p) := by
  refine shapeCast_apply v h (ix2 p z) (ix1 p) ?_
  rw [Shape.rowMajor_val_one, Shape.rowMajor_val_two]
  show p.val = p.val * 1 + z.val
  have := z.isLt
  omega

/-- A one-column array broadcast along the rows reads its column entry of the same row. -/
theorem bcast_col (v : FVec Ideal S5000x1 .f32) (h : S5000x1.Broadcasts S5000x64) (p : Fin 5000) (q : Fin 64) :
    broadcastTo S5000x64 v h (ix2 p q) = v (ix2 p 0) := by
  refine broadcastTo_apply v h (ix2 p q) (ix2 p 0) fun ax => ?_
  match ax with
  | ⟨0, _⟩ =>
    show p.val = if (5000 : ℕ) = 1 then 0 else p.val
    rw [if_neg (by decide)]
  | ⟨1, _⟩ =>
    show (0 : ℕ) = if (1 : ℕ) = 1 then 0 else q.val
    rw [if_pos rfl]

/-- The index a reduction over the columns inserts at row p, column k. -/
theorem lift_row (h : S5000x64.Reduces [1] S5000) (p : Fin 5000) (k : Fin 64) : h.lift (ix1 p) k = ix2 p k := by
  funext a
  apply Fin.ext
  match a with
  | ⟨0, _⟩ => rfl
  | ⟨1, _⟩ => rfl

/-- The maximum over the columns, folded from −∞, at row p. -/
theorem rowmax_apply (v : FVec Ideal S5000x64 .f32) (h : S5000x64.Reduces [1] S5000) (hφ) (hacc) (p : Fin 5000) :
    multiReduction (F := Ideal) .maximumf [1] S5000 v 0xFF800000#32 h hφ hacc (ix1 p)
      = (Finset.univ : Finset (Fin 64)).fold max negInfW (fun k => v (ix2 p k)) := by
  refine (Ideal.multiReduction_maximumf_single v _ h hφ hacc (ix1 p)).trans ?_
  have e : (v ∘ h.lift (ix1 p)) = fun k : Fin 64 => v (ix2 p k) := funext fun k => congrArg v (lift_row h p k)
  exact congrArg (fun f => Finset.fold max negInfW f (Finset.univ : Finset (Fin 64))) e

/-- The sum over the columns at row p. -/
theorem rowsum_apply (v : FVec Ideal S5000x64 .f32) (h : S5000x64.Reduces [1] S5000) (hφ) (hacc) (p : Fin 5000) :
    multiReduction (F := Ideal) .add [1] S5000 v 0x00000000#32 h hφ hacc (ix1 p) = ∑ k : Fin 64, v (ix2 p k) := by
  refine (Ideal.multiReduction_add_single v _ h hφ hacc (ix1 p)).trans ?_
  exact Finset.sum_congr rfl fun k _ => congrArg v (lift_row h p k)

/-- The row-wise softmax as the body writes it, at an entry: for any array y. -/
theorem softmax_apply (y : FVec Ideal S5000x64 .f32) (hr : S5000x64.Reduces [1] S5000) (hc : S5000.ShapeCasts S5000x1)
    (hb : S5000x1.Broadcasts S5000x64) (hφ) (hm) (ha) (p : Fin 5000) (q : Fin 64) :
    divf
      (exp (subf y (broadcastTo S5000x64 (shapeCast S5000x1
        (maximumf (broadcast S5000 (FloatOps.ofBits (F := Ideal) .f32 0xFF800000#32))
          (multiReduction (F := Ideal) .maximumf [1] S5000 y 0xFF800000#32 hr hφ hm)) hc) hb)))
      (broadcastTo S5000x64 (shapeCast S5000x1
        (multiReduction (F := Ideal) .add [1] S5000
          (exp (subf y (broadcastTo S5000x64 (shapeCast S5000x1
            (maximumf (broadcast S5000 (FloatOps.ofBits (F := Ideal) .f32 0xFF800000#32))
              (multiReduction (F := Ideal) .maximumf [1] S5000 y 0xFF800000#32 hr hφ hm)) hc) hb)))
          0x00000000#32 hr hφ ha) hc) hb)
      (ix2 p q)
    = Ideal.div (Ideal.exp (y (ix2 p q) - rowTop (fun k => y (ix2 p k))))
        (∑ k : Fin 64, Ideal.exp (y (ix2 p k) - rowTop (fun k => y (ix2 p k)))) := by
  -- the row's top, broadcast back over the row
  have hM : ∀ k : Fin 64, broadcastTo S5000x64 (shapeCast S5000x1
        (maximumf (broadcast S5000 (FloatOps.ofBits (F := Ideal) .f32 0xFF800000#32))
          (multiReduction (F := Ideal) .maximumf [1] S5000 y 0xFF800000#32 hr hφ hm)) hc) hb (ix2 p k)
        = rowTop (fun k => y (ix2 p k)) := fun k => by
    rw [bcast_col, cast_col]
    show max (FloatOps.ofBits (F := Ideal) .f32 0xFF800000#32)
      (multiReduction (F := Ideal) .maximumf [1] S5000 y 0xFF800000#32 hr hφ hm (ix1 p)) = _
    rw [rowmax_apply]
    rfl
  -- the exponentials of the row, entry by entry
  have hE : ∀ k : Fin 64, exp (subf y (broadcastTo S5000x64 (shapeCast S5000x1
        (maximumf (broadcast S5000 (FloatOps.ofBits (F := Ideal) .f32 0xFF800000#32))
          (multiReduction (F := Ideal) .maximumf [1] S5000 y 0xFF800000#32 hr hφ hm)) hc) hb)) (ix2 p k)
        = Ideal.exp (y (ix2 p k) - rowTop (fun k => y (ix2 p k))) := fun k => by
    show Ideal.exp (y (ix2 p k) - _) = _
    rw [hM k]
  show Ideal.div _ _ = _
  rw [hE q, bcast_col, cast_col, rowsum_apply]
  exact congrArg (Ideal.div _) (Finset.sum_congr rfl fun k _ => hE k)

/-- One entry of the block the body stores: the softmax of the row of x0 + x1 through (p, q). -/
theorem pay_apply (x0 : Vec Ideal S5000x64 .f32) (x1 : Vec Ideal S1x64 .f32) (p : Fin 5000) (q : Fin 64) :
    k2_pay1 x0 x1 (ix2 p q)
      = Ideal.div (Ideal.exp ((x0 (ix2 p q) + x1 (ix2 0 q)) - rowTop (fun k => x0 (ix2 p k) + x1 (ix2 0 k))))
          (∑ k : Fin 64, Ideal.exp ((x0 (ix2 p k) + x1 (ix2 0 k)) - rowTop (fun k => x0 (ix2 p k) + x1 (ix2 0 k)))) := by
  unfold k2_pay1
  rw [shapeCast_self, shapeCast_self]
  refine (softmax_apply _ _ _ _ _ _ _ p q).trans ?_
  have hy : ∀ k : Fin 64, (addf (x0 : FVec Ideal S5000x64 .f32)
        (broadcastTo S5000x64 (x1 : FVec Ideal S1x64 .f32) broadcasts_S1x64_S5000x64) : FVec Ideal S5000x64 .f32) (ix2 p k)
      = x0 (ix2 p k) + x1 (ix2 0 k) := fun k => by
    rw [addf_apply, broadcastTo_1b_ab_apply]
  simp only [hy]

/-- The same entry, the row of x0 + x1 named: whatever function r the row is. -/
theorem pay_apply_of (x0 : Vec Ideal S5000x64 .f32) (x1 : Vec Ideal S1x64 .f32) (p : Fin 5000) (q : Fin 64)
    (r : Fin 64 → EReal) (hr : ∀ k : Fin 64, x0 (ix2 p k) + x1 (ix2 0 k) = r k) :
    k2_pay1 x0 x1 (ix2 p q) = Ideal.div (Ideal.exp (r q - rowTop r)) (∑ k : Fin 64, Ideal.exp (r k - rowTop r)) := by
  rw [pay_apply]
  obtain rfl : (fun k : Fin 64 => x0 (ix2 p k) + x1 (ix2 0 k)) = r := funext hr
  rfl

/-! ## The blocks as parts of the arrays -/

theorem hz : (![0, 0] : Fin 2 → Nat) = fun _ => 0 := funext fun a => by fin_cases a <;> rfl

/-- The printed index maps over the ten grid points: the row block of the input and of the output is the point's
    number, every other block index is zero. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 ∧ t.val < 10 :=
  (by decide +kernel : ∀ t : Fin grid2.N, _)

variable (V : (c : Dev nD) → (b : Ref sig .tc) → Buf (Elt Ideal) ((c : Thread nD τ).loc b))

/-- The input block of point t is rows 5000 t … 5000 t + 4999 of the array z. -/
theorem zblk_apply (c : Dev nD) (t : Fin cfg2.N) (p : Fin 5000) (k : Fin 64) (P : Fin 50000)
    (hP : P.val = t.val * 5000 + p.val) :
    (iblk2 V c 0 t : Vec Ideal S5000x64 .f32) (ix2 p k) = (V c main_v68 : S50000x64.Idx → EReal) (ix2 P k) := by
  obtain ⟨e0, e1, -, -, -, -, -⟩ := idx_facts t
  unfold iblk2
  rw [View.read_apply]
  show (V c main_v68 : S50000x64.Idx → EReal) _ = _
  refine congrArg (V c main_v68 : S50000x64.Idx → EReal) (funext fun a => Fin.ext ?_)
  match a with
  | ⟨0, _⟩ => show win2_0.index t (0 : Fin 2) * 5000 + 1 * p.val = P.val; omega
  | ⟨1, _⟩ => show win2_0.index t (1 : Fin 2) * 64 + 1 * k.val = k.val; omega

/-- The bias block of every point is the one-row array. -/
theorem bblk_apply (c : Dev nD) (t : Fin cfg2.N) (k : Fin 64) :
    (iblk2 V c 1 t : Vec Ideal S1x64 .f32) (ix2 0 k) = (V c main_v69 : S1x64.Idx → EReal) (ix2 0 k) := by
  obtain ⟨-, -, e2, e3, -, -, -⟩ := idx_facts t
  unfold iblk2
  rw [View.read_apply]
  show (V c main_v69 : S1x64.Idx → EReal) _ = _
  refine congrArg (V c main_v69 : S1x64.Idx → EReal) (funext fun a => Fin.ext ?_)
  match a with
  | ⟨0, _⟩ => show win2_1.index t (0 : Fin 2) * 1 + 1 * 0 = 0; omega
  | ⟨1, _⟩ => show win2_1.index t (1 : Fin 2) * 64 + 1 * k.val = k.val; omega

/-- What point t writes back is block t of the row-wise softmax of z + b. -/
theorem flushed_eq (c : Dev nD) (t : Fin cfg2.N) :
    (dat2 V c).flushed 2 t = ((cfg2.win 2).blk t).view.read (Elt Ideal)
      (biasSoftmax (V c main_v68) (fun j => (V c main_v69 : S1x64.Idx → EReal) (ix2 0 (j 0)))) := by
  show (cfg2.win 2).cut (grid2.coords t) ((dat2 V c).after 2 t) = _
  rw [after2_2]
  unfold out2_2
  rw [View.canon_unit_zero hz]
  simp only [View.ld_unit_zero (S := S5000x64) hz, View.ld_unit_zero (S := S1x64) hz]
  obtain ⟨-, -, -, -, e4, e5, e6⟩ := idx_facts t
  funext j
  obtain ⟨p, q, rfl⟩ : ∃ (p : Fin 5000) (q : Fin 64), j = (ix2 p q : S5000x64.Idx) := ⟨j 0, j 1, eq_ix2 j⟩
  show k2_pay1 (iblk2 V c 0 t) (iblk2 V c 1 t) (ix2 p q) = _
  have hP : t.val * 5000 + p.val < 50000 := by have := p.isLt; omega
  -- the block's row p is row 5000 t + p of z + b
  refine (pay_apply_of (iblk2 V c 0 t) (iblk2 V c 1 t) p q
    (biasedRow (V c main_v68) (fun j => (V c main_v69 : S1x64.Idx → EReal) (ix2 0 (j 0))) ⟨t.val * 5000 + p.val, hP⟩)
    (fun k => ?_)).trans ?_
  · exact congrArg₂ (· + ·) (zblk_apply V c t p k ⟨t.val * 5000 + p.val, hP⟩ rfl) (bblk_apply V c t k)
  -- and the block's entry (p, q) sits at (5000 t + p, q) of the array
  have hi : ((cfg2.win 2).blk t).view.emb (ix2 p q : S5000x64.Idx)
      = (ix2 (⟨t.val * 5000 + p.val, hP⟩ : Fin 50000) q : S50000x64.Idx) := by
    funext a
    apply Fin.ext
    match a with
    | ⟨0, _⟩ => show win2_2.index t (0 : Fin 2) * 5000 + 1 * p.val = t.val * 5000 + p.val; omega
    | ⟨1, _⟩ => show win2_2.index t (1 : Fin 2) * 64 + 1 * q.val = q.val; omega
  show _ = biasSoftmax (V c main_v68) (fun j => (V c main_v69 : S1x64.Idx → EReal) (ix2 0 (j 0)))
    (((cfg2.win 2).blk t).view.emb (ix2 p q : S5000x64.Idx))
  rw [hi, biasSoftmax_apply]

/-! ## The ten blocks cover the array -/

/-- An index of the array is in point t's block iff each coordinate is in the block's range on its axis. -/
theorem mem_blk (t : Fin cfg2.N) (i : S50000x64.Idx) :
    i ∈ ((cfg2.win 2).blk t).view.set ↔ ∀ a : Fin 2, win2_2.index t a * S5000x64.size a ≤ (i a).val
      ∧ (i a).val < win2_2.index t a * S5000x64.size a + S5000x64.size a := by
  show i ∈ ((View.whole main_v70).slice (win2_2.rect t)).set ↔ _
  rw [View.set_slice_whole, Rect.mem_set_unit]
  exact Iff.rfl

/-- Every index of the array is in the block of the point its row falls to: row r belongs to point r / 5000. -/
theorem cover (i : S50000x64.Idx) :
    ∃ t : Fin cfg2.N, (cfg2.win 2).flush t = true ∧ i ∈ ((cfg2.win 2).blk t).view.set := by
  have hi0 : (i 0).val < 50000 := (i 0).isLt
  have hi1 : (i 1).val < 64 := (i 1).isLt
  have ht : (i 0).val / 5000 < cfg2.N := by show (i 0).val / 5000 < 10; omega
  obtain ⟨-, -, -, -, e4, e5, -⟩ := idx_facts ⟨(i 0).val / 5000, ht⟩
  refine ⟨⟨(i 0).val / 5000, ht⟩, flush2_2 _, ?_⟩
  rw [mem_blk]
  intro a
  match a with
  | ⟨0, _⟩ =>
    show win2_2.index ⟨(i 0).val / 5000, ht⟩ (0 : Fin 2) * 5000 ≤ (i 0).val
      ∧ (i 0).val < win2_2.index ⟨(i 0).val / 5000, ht⟩ (0 : Fin 2) * 5000 + 5000
    rw [e4]
    show (i 0).val / 5000 * 5000 ≤ (i 0).val ∧ (i 0).val < (i 0).val / 5000 * 5000 + 5000
    omega
  | ⟨1, _⟩ =>
    show win2_2.index ⟨(i 0).val / 5000, ht⟩ (1 : Fin 2) * 64 ≤ (i 1).val
      ∧ (i 1).val < win2_2.index ⟨(i 0).val / 5000, ht⟩ (1 : Fin 2) * 64 + 64
    rw [e5]
    omega

end Softmax

variable (V : (c : Dev nD) → (b : Ref sig .tc) → Buf (Elt Ideal) ((c : Thread nD τ).loc b))

/-- After the third call its result array is the row-wise softmax of z + b of the arrays the call found, b the one
    row of the bias operand. -/
theorem region2_value (c : Dev nD) :
    (dat2 V c).arrAt 2 cfg2.N
      = biasSoftmax (V c main_v68) (fun j => (V c main_v69 : S1x64.Idx → EReal) (ix2 0 (j 0))) :=
  (dat2 V c).arrAt_eq_of_cover 2 _ (fun t _ => Softmax.flushed_eq V c t) Softmax.cover

end Cert.KernelIdeal.Hand

end
-- ==== Proof.RefStages.lean ====
/-
  The reference's three dense stages read index by index: its two matrix products and its softmax are the
  functions `reluDot`, `biasReluDot` and `biasSoftmax` of the stages before them.
-/
import proofs.«142240_j41059887350098_1_alg».proof.Proof.Gen.ReferenceIdeal.Read
import proofs.«142240_j41059887350098_1_alg».proof.Proof.Spec
import proofs.«142240_j41059887350098_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem Idealize.ShloMosaic.ValueIdx

namespace Cert.ReferenceIdeal.Hand

open Cert.ReferenceIdeal Cert.ReferenceIdeal.Gen Cert.ReferenceIdeal.Read Cert.Gcn

/-- The first projection: relu of the features times the first weights. -/
theorem ref_reluDot (x0 : FVec Ideal S50000x128 .f32) (x2 : FVec Ideal S128x128 .f32) :
    val_main_v5 (F := Ideal) x0 x2 = reluDot x0 x2 := by
  funext i
  obtain ⟨p, q, rfl⟩ : ∃ (p : Fin 50000) (q : Fin 128), i = ix2 p q := ⟨i 0, i 1, eq_ix2 i⟩
  rw [val_main_v5_apply, reluDot_apply]
  refine Finset.sum_congr rfl fun k _ => ?_
  have el : lidx_main_v5 (ix2 p q) k = ix2 p k :=
    funext fun a => Fin.ext (by match a with | ⟨0, _⟩ => rfl | ⟨1, _⟩ => rfl)
  have er : ridx_main_v5 (ix2 p q) k = ix2 k q :=
    funext fun a => Fin.ext (by match a with | ⟨0, _⟩ => rfl | ⟨1, _⟩ => rfl)
  rw [el, er, val_main_v4_apply, val_main_call0_v0_apply, val_main_call0_cst_apply]
  rfl

/-- The second projection: relu of the first layer's aggregate plus its bias, times the second weights. -/
theorem ref_biasReluDot (x0 : FVec Ideal S50000x128 .f32) (x1 : IVec S2x800000 32) (x2 : FVec Ideal S128x128 .f32)
    (x3 : FVec Ideal S128 .f32) (x4 : FVec Ideal S128x64 .f32) :
    val_main_v55 (F := Ideal) x0 x1 x2 x3 x4 = biasReluDot (val_main_v50 (F := Ideal) x0 x1 x2) x3 x4 := by
  funext i
  obtain ⟨p, q, rfl⟩ : ∃ (p : Fin 50000) (q : Fin 64), i = ix2 p q := ⟨i 0, i 1, eq_ix2 i⟩
  rw [val_main_v55_apply, biasReluDot_apply]
  refine Finset.sum_congr rfl fun k _ => ?_
  have el : lidx_main_v55 (ix2 p q) k = ix2 p k :=
    funext fun a => Fin.ext (by match a with | ⟨0, _⟩ => rfl | ⟨1, _⟩ => rfl)
  have er : ridx_main_v55 (ix2 p q) k = ix2 k q :=
    funext fun a => Fin.ext (by match a with | ⟨0, _⟩ => rfl | ⟨1, _⟩ => rfl)
  have eb : idx_main_v51 (idx_main_v52 (ix2 p k)) = ix1 k :=
    funext fun a => Fin.ext (by match a with | ⟨0, _⟩ => rfl)
  rw [el, er, val_main_v54_apply, val_main_v53_apply, val_main_v52_apply, val_main_v51_apply,
    val_main_call1_v0_apply, val_main_call1_cst_apply, eb]
  generalize val_main_v50 (F := Ideal) x0 x1 x2 = a
  rfl

/-- The biased second aggregate at a point is the biased row's entry. -/
theorem v103_point (x0 : FVec Ideal S50000x128 .f32) (x1 : IVec S2x800000 32) (x2 : FVec Ideal S128x128 .f32)
    (x3 : FVec Ideal S128 .f32) (x4 : FVec Ideal S128x64 .f32) (x5 : FVec Ideal S64 .f32) (p : Fin 50000) (k : Fin 64) :
    val_main_v103 (F := Ideal) x0 x1 x2 x3 x4 x5 (ix2 p k)
      = biasedRow (val_main_v100 (F := Ideal) x0 x1 x2 x3 x4) x5 p k := by
  have eb : idx_main_v101 (idx_main_v102 (ix2 p k)) = ix1 k :=
    funext fun a => Fin.ext (by match a with | ⟨0, _⟩ => rfl)
  rw [val_main_v103_apply, val_main_v102_apply, val_main_v101_apply, eb]
  generalize val_main_v100 (F := Ideal) x0 x1 x2 x3 x4 = z
  rfl

/-- The max-reduction of a [50000, 64] array over its second axis from −∞, at row p: the fold of max over that row. -/
theorem rowMax_point (y : FVec Ideal S50000x64 .f32) (p : Fin 50000) :
    Host.reduce (FloatOps.maximumf (F := Ideal) (φ := .f32)) y (val_main_cst_22 (F := Ideal))
        reducesTo_S50000x64_S50000_d1 h_S_ (ix1 p)
      = (Finset.univ : Finset (Fin 64)).fold max negInfW (fun k => y (ix2 p k)) := by
  have hr : Shape.Reduces S50000x64 [1] S50000 := by decide
  refine (Host.reduce_eq_fold_single (FloatOps.maximumf (F := Ideal) (φ := .f32)) y (val_main_cst_22 (F := Ideal))
    reducesTo_S50000x64_S50000_d1 hr h_S_ (ix1 p)).trans ?_
  have ef : (y ∘ hr.lift (ix1 p)) = fun k : Fin 64 => y (ix2 p k) := by
    funext k
    exact congrArg y (funext fun a => Fin.ext (by match a with | ⟨0, _⟩ => rfl | ⟨1, _⟩ => rfl))
  rw [ef]
  rfl

/-- A row's maximum as the reference takes it: the max-reduction over the row from −∞, then once more against −∞. -/
theorem v106_point (x0 : FVec Ideal S50000x128 .f32) (x1 : IVec S2x800000 32) (x2 : FVec Ideal S128x128 .f32)
    (x3 : FVec Ideal S128 .f32) (x4 : FVec Ideal S128x64 .f32) (x5 : FVec Ideal S64 .f32) (p : Fin 50000) :
    val_main_v106 (F := Ideal) x0 x1 x2 x3 x4 x5 (ix1 p)
      = rowTop (biasedRow (val_main_v100 (F := Ideal) x0 x1 x2 x3 x4) x5 p) := by
  rw [val_main_v106_apply, val_main_v105_apply, val_main_cst_23_apply]
  unfold val_main_v104
  refine (congrArg (FloatOps.maximumf (F := Ideal) (φ := .f32) (FloatOps.ofBits .f32 0xFF800000#32))
    (rowMax_point (val_main_v103 (F := Ideal) x0 x1 x2 x3 x4 x5) p)).trans ?_
  simp only [v103_point]
  generalize biasedRow (val_main_v100 (F := Ideal) x0 x1 x2 x3 x4) x5 p = r
  rfl

/-- The shifted exponential at a point. -/
theorem v110_point (x0 : FVec Ideal S50000x128 .f32) (x1 : IVec S2x800000 32) (x2 : FVec Ideal S128x128 .f32)
    (x3 : FVec Ideal S128 .f32) (x4 : FVec Ideal S128x64 .f32) (x5 : FVec Ideal S64 .f32) (p : Fin 50000) (k : Fin 64) :
    val_main_v110 (F := Ideal) x0 x1 x2 x3 x4 x5 (ix2 p k)
      = Ideal.exp (biasedRow (val_main_v100 (F := Ideal) x0 x1 x2 x3 x4) x5 p k
          - rowTop (biasedRow (val_main_v100 (F := Ideal) x0 x1 x2 x3 x4) x5 p)) := by
  have e8 : idx_main_v107 (idx_main_v108 (ix2 p k)) = ix1 p :=
    funext fun a => Fin.ext (by match a with | ⟨0, _⟩ => rfl)
  rw [val_main_v110_apply, val_main_v109_apply, val_main_v108_apply, val_main_v107_apply, e8, v106_point, v103_point]
  generalize biasedRow (val_main_v100 (F := Ideal) x0 x1 x2 x3 x4) x5 p = r
  rfl

/-- The result: the row-wise softmax of the second layer's aggregate plus its bias. -/
theorem ref_biasSoftmax (x0 : FVec Ideal S50000x128 .f32) (x1 : IVec S2x800000 32) (x2 : FVec Ideal S128x128 .f32)
    (x3 : FVec Ideal S128 .f32) (x4 : FVec Ideal S128x64 .f32) (x5 : FVec Ideal S64 .f32) :
    val_main_v114 (F := Ideal) x0 x1 x2 x3 x4 x5 = biasSoftmax (val_main_v100 (F := Ideal) x0 x1 x2 x3 x4) x5 := by
  funext i
  obtain ⟨p, q, rfl⟩ : ∃ (p : Fin 50000) (q : Fin 64), i = ix2 p q := ⟨i 0, i 1, eq_ix2 i⟩
  have e13 : idx_main_v112 (idx_main_v113 (ix2 p q)) = ix1 p :=
    funext fun a => Fin.ext (by match a with | ⟨0, _⟩ => rfl)
  have e11 : ∀ k : Fin 64, idx_main_v111 (ix1 p) k = ix2 p k := fun k =>
    funext fun a => Fin.ext (by match a with | ⟨0, _⟩ => rfl | ⟨1, _⟩ => rfl)
  rw [val_main_v114_apply, val_main_v113_apply, val_main_v112_apply, e13, val_main_v111_apply,
    val_main_cst_24_apply, biasSoftmax_apply]
  simp only [e11, v110_point]
  generalize biasedRow (val_main_v100 (F := Ideal) x0 x1 x2 x3 x4) x5 p = r
  rw [Ideal.ofBits_def, Ideal.ofBits_zero_f32, zero_add]
  rfl

end Cert.ReferenceIdeal.Hand

end
-- ==== Proof.HostValues.lean ====
/-
  The program between its three calls, read as values. The host computes the edge normalisation once (the reciprocal
  square roots of the in-degrees plus one, gathered at both ends of every edge and multiplied), then after each of
  the first two calls aggregates that call's result over the edges (gather by source, scale, scatter-add by
  destination, plus the self term). Every one of these host operations is the reference's own operation on the same
  operands, so each stage of the program is the reference's stage of the same name once the call before it is known
  to hold the reference's product: the host chains are never opened, only matched.
-/
import proofs.«142240_j41059887350098_1_alg».proof.Proof.Gen.KernelIdeal.Frame
import proofs.«142240_j41059887350098_1_alg».proof.Proof.Gen.ReferenceIdeal.Read
import proofs.«142240_j41059887350098_1_alg».proof.Proof.RegionReluDot
import proofs.«142240_j41059887350098_1_alg».proof.Proof.RegionBiasReluDot
import proofs.«142240_j41059887350098_1_alg».proof.Proof.RegionSoftmax
import proofs.«142240_j41059887350098_1_alg».proof.Proof.RefStages
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

open Idealize.ShloMosaic Idealize.ShloMosaic.TcCoe Idealize.SL.Sem Idealize.ShloMosaic.ValueIdx Idealize.ShloMosaic.StableHlo

namespace Cert.KernelIdeal.Hand

open Cert.KernelIdeal Cert.KernelIdeal.Gen Cert.Gcn

variable (m : (ℓ : Loc nD τ sig) → Buf (Elt Ideal) ℓ) (ρ : Dev nD → PrngReg)

/-- The six arguments as launched, at their literal types. -/
abbrev X0 (c : Dev nD) : FVec Ideal S50000x128 .f32 := m ((c : Thread nD τ).loc main_arg0)
abbrev X1 (c : Dev nD) : IVec S2x800000 32 := m ((c : Thread nD τ).loc main_arg1)
abbrev X2 (c : Dev nD) : FVec Ideal S128x128 .f32 := m ((c : Thread nD τ).loc main_arg2)
abbrev X3 (c : Dev nD) : FVec Ideal S128 .f32 := m ((c : Thread nD τ).loc main_arg3)
abbrev X4 (c : Dev nD) : FVec Ideal S128x64 .f32 := m ((c : Thread nD τ).loc main_arg4)
abbrev X5 (c : Dev nD) : FVec Ideal S64 .f32 := m ((c : Thread nD τ).loc main_arg5)

/-! ## Before the first call: the edge lists and the normalisation -/

theorem W1_src (c : Dev nD) : W1 m ρ c (Proc.devRef .tc main_v1) = Cert.ReferenceIdeal.Read.val_main_v1 (F := Ideal) (X1 m c) := by
  show StableHlo.after hostOps0 (W0 m ρ c) (Proc.devRef .tc main_v1) = _
  after_results_simp
  rfl
theorem W1_dst (c : Dev nD) : W1 m ρ c (Proc.devRef .tc main_v3) = Cert.ReferenceIdeal.Read.val_main_v3 (F := Ideal) (X1 m c) := by
  show StableHlo.after hostOps0 (W0 m ρ c) (Proc.devRef .tc main_v3) = _
  after_results_simp
  rfl
/-- The edge weights: the normalisation gathered at both ends of each edge, multiplied. -/
theorem W1_norm (c : Dev nD) : W1 m ρ c (Proc.devRef .tc main_v30) = Cert.ReferenceIdeal.Read.val_main_v32 (F := Ideal) (X1 m c) := by
  show StableHlo.after hostOps0 (W0 m ρ c) (Proc.devRef .tc main_v30) = _
  after_results_simp
  rfl
/-- The self weights: the normalisation squared. -/
theorem W1_self (c : Dev nD) : W1 m ρ c (Proc.devRef .tc main_v31) = Cert.ReferenceIdeal.Read.val_main_v46 (F := Ideal) (X1 m c) := by
  show StableHlo.after hostOps0 (W0 m ρ c) (Proc.devRef .tc main_v31) = _
  after_results_simp
  rfl
theorem W1_arg0 (c : Dev nD) : W1 m ρ c (Proc.devRef .tc main_arg0) = X0 m c := by
  show StableHlo.after hostOps0 (W0 m ρ c) (Proc.devRef .tc main_arg0) = _
  after_results_simp
theorem W1_arg2 (c : Dev nD) : W1 m ρ c (Proc.devRef .tc main_arg2) = X2 m c := by
  show StableHlo.after hostOps0 (W0 m ρ c) (Proc.devRef .tc main_arg2) = _
  after_results_simp
theorem W1_arg3 (c : Dev nD) : W1 m ρ c (Proc.devRef .tc main_arg3) = X3 m c := by
  show StableHlo.after hostOps0 (W0 m ρ c) (Proc.devRef .tc main_arg3) = _
  after_results_simp
theorem W1_arg4 (c : Dev nD) : W1 m ρ c (Proc.devRef .tc main_arg4) = X4 m c := by
  show StableHlo.after hostOps0 (W0 m ρ c) (Proc.devRef .tc main_arg4) = _
  after_results_simp
theorem W1_arg5 (c : Dev nD) : W1 m ρ c (Proc.devRef .tc main_arg5) = X5 m c := by
  show StableHlo.after hostOps0 (W0 m ρ c) (Proc.devRef .tc main_arg5) = _
  after_results_simp

/-! ## The first call: the first projection -/

/-- After the first call its result array holds the reference's first product. -/
theorem W2_proj (c : Dev nD) : W2 m ρ c (Proc.devRef .tc main_v32)
    = Cert.ReferenceIdeal.Read.val_main_v5 (F := Ideal) (X0 m c) (X2 m c) := by
  refine (W2_arr m ρ c 2).trans ((region0_value (V1 m ρ) c).trans ?_)
  show reluDot (W1 m ρ c (Proc.devRef .tc main_arg0)) (W1 m ρ c (Proc.devRef .tc main_arg2)) = _
  rw [W1_arg0, W1_arg2]
  exact (Cert.ReferenceIdeal.Hand.ref_reluDot _ _).symm

/-! ## Between the first two calls: the first aggregation -/

theorem W2_src (c : Dev nD) : W2 m ρ c (Proc.devRef .tc main_v1) = Cert.ReferenceIdeal.Read.val_main_v1 (F := Ideal) (X1 m c) :=
  (W2_of_ne m ρ c main_v1 (by decide)).trans (W1_src m ρ c)
theorem W2_dst (c : Dev nD) : W2 m ρ c (Proc.devRef .tc main_v3) = Cert.ReferenceIdeal.Read.val_main_v3 (F := Ideal) (X1 m c) :=
  (W2_of_ne m ρ c main_v3 (by decide)).trans (W1_dst m ρ c)
theorem W2_norm (c : Dev nD) : W2 m ρ c (Proc.devRef .tc main_v30) = Cert.ReferenceIdeal.Read.val_main_v32 (F := Ideal) (X1 m c) :=
  (W2_of_ne m ρ c main_v30 (by decide)).trans (W1_norm m ρ c)
theorem W2_self (c : Dev nD) : W2 m ρ c (Proc.devRef .tc main_v31) = Cert.ReferenceIdeal.Read.val_main_v46 (F := Ideal) (X1 m c) :=
  (W2_of_ne m ρ c main_v31 (by decide)).trans (W1_self m ρ c)
theorem W2_arg3 (c : Dev nD) : W2 m ρ c (Proc.devRef .tc main_arg3) = X3 m c :=
  (W2_of_ne m ρ c main_arg3 (by decide)).trans (W1_arg3 m ρ c)
theorem W2_arg4 (c : Dev nD) : W2 m ρ c (Proc.devRef .tc main_arg4) = X4 m c :=
  (W2_of_ne m ρ c main_arg4 (by decide)).trans (W1_arg4 m ρ c)
theorem W2_arg5 (c : Dev nD) : W2 m ρ c (Proc.devRef .tc main_arg5) = X5 m c :=
  (W2_of_ne m ρ c main_arg5 (by decide)).trans (W1_arg5 m ρ c)

/-- The first aggregate: the reference's, over the first product. -/
theorem W3_agg (c : Dev nD) : W3 m ρ c (Proc.devRef .tc main_v49)
    = Cert.ReferenceIdeal.Read.val_main_v50 (F := Ideal) (X0 m c) (X1 m c) (X2 m c) := by
  show StableHlo.after hostOps1 (W2 m ρ c) (Proc.devRef .tc main_v49) = _
  after_results_simp
  rw [W2_proj, W2_src, W2_dst, W2_norm, W2_self]
  rfl

/-- The first bias as the one-row array the second call takes. -/
theorem W3_biasRow (c : Dev nD) : W3 m ρ c (Proc.devRef .tc main_v50) = shapeCast S1x128 (X3 m c) shapeCasts_S128_S1x128 := by
  show StableHlo.after hostOps1 (W2 m ρ c) (Proc.devRef .tc main_v50) = _
  after_results_simp
  rw [W2_arg3]
  rfl

/-- Its one row is the bias. -/
theorem W3_bias (c : Dev nD) :
    (fun j : S128.Idx => (W3 m ρ c (Proc.devRef .tc main_v50) : S1x128.Idx → EReal) (ix2 0 (j 0))) = X3 m c := by
  funext j
  obtain ⟨k, rfl⟩ : ∃ k : Fin 128, j = ix1 k := ⟨j 0, eq_ix1 j⟩
  rw [W3_biasRow]
  exact shapeCast_a_1a_apply (X3 m c) shapeCasts_S128_S1x128 0 k

theorem W3_src (c : Dev nD) : W3 m ρ c (Proc.devRef .tc main_v1) = Cert.ReferenceIdeal.Read.val_main_v1 (F := Ideal) (X1 m c) := by
  show StableHlo.after hostOps1 (W2 m ρ c) (Proc.devRef .tc main_v1) = _
  after_results_simp
  exact W2_src m ρ c
theorem W3_dst (c : Dev nD) : W3 m ρ c (Proc.devRef .tc main_v3) = Cert.ReferenceIdeal.Read.val_main_v3 (F := Ideal) (X1 m c) := by
  show StableHlo.after hostOps1 (W2 m ρ c) (Proc.devRef .tc main_v3) = _
  after_results_simp
  exact W2_dst m ρ c
theorem W3_norm (c : Dev nD) : W3 m ρ c (Proc.devRef .tc main_v30) = Cert.ReferenceIdeal.Read.val_main_v32 (F := Ideal) (X1 m c) := by
  show StableHlo.after hostOps1 (W2 m ρ c) (Proc.devRef .tc main_v30) = _
  after_results_simp
  exact W2_norm m ρ c
theorem W3_self (c : Dev nD) : W3 m ρ c (Proc.devRef .tc main_v31) = Cert.ReferenceIdeal.Read.val_main_v46 (F := Ideal) (X1 m c) := by
  show StableHlo.after hostOps1 (W2 m ρ c) (Proc.devRef .tc main_v31) = _
  after_results_simp
  exact W2_self m ρ c
theorem W3_arg4 (c : Dev nD) : W3 m ρ c (Proc.devRef .tc main_arg4) = X4 m c := by
  show StableHlo.after hostOps1 (W2 m ρ c) (Proc.devRef .tc main_arg4) = _
  after_results_simp
  exact W2_arg4 m ρ c
theorem W3_arg5 (c : Dev nD) : W3 m ρ c (Proc.devRef .tc main_arg5) = X5 m c := by
  show StableHlo.after hostOps1 (W2 m ρ c) (Proc.devRef .tc main_arg5) = _
  after_results_simp
  exact W2_arg5 m ρ c

/-! ## The second call: the second projection -/

/-- After the second call its result array holds the reference's second product. -/
theorem W4_proj (c : Dev nD) : W4 m ρ c (Proc.devRef .tc main_v51)
    = Cert.ReferenceIdeal.Read.val_main_v55 (F := Ideal) (X0 m c) (X1 m c) (X2 m c) (X3 m c) (X4 m c) := by
  refine (W4_arr m ρ c 3).trans ((region1_value (V3 m ρ) c).trans ?_)
  show biasReluDot (W3 m ρ c (Proc.devRef .tc main_v49))
      (fun j : S128.Idx => (W3 m ρ c (Proc.devRef .tc main_v50) : S1x128.Idx → EReal) (ix2 0 (j 0)))
      (W3 m ρ c (Proc.devRef .tc main_arg4)) = _
  rw [W3_agg, W3_bias, W3_arg4]
  exact (Cert.ReferenceIdeal.Hand.ref_biasReluDot _ _ _ _ _).symm

/-! ## Between the last two calls: the second aggregation -/

theorem W4_src (c : Dev nD) : W4 m ρ c (Proc.devRef .tc main_v1) = Cert.ReferenceIdeal.Read.val_main_v1 (F := Ideal) (X1 m c) :=
  (W4_of_ne m ρ c main_v1 (by decide)).trans (W3_src m ρ c)
theorem W4_dst (c : Dev nD) : W4 m ρ c (Proc.devRef .tc main_v3) = Cert.ReferenceIdeal.Read.val_main_v3 (F := Ideal) (X1 m c) :=
  (W4_of_ne m ρ c main_v3 (by decide)).trans (W3_dst m ρ c)
theorem W4_norm (c : Dev nD) : W4 m ρ c (Proc.devRef .tc main_v30) = Cert.ReferenceIdeal.Read.val_main_v32 (F := Ideal) (X1 m c) :=
  (W4_of_ne m ρ c main_v30 (by decide)).trans (W3_norm m ρ c)
theorem W4_self (c : Dev nD) : W4 m ρ c (Proc.devRef .tc main_v31) = Cert.ReferenceIdeal.Read.val_main_v46 (F := Ideal) (X1 m c) :=
  (W4_of_ne m ρ c main_v31 (by decide)).trans (W3_self m ρ c)
theorem W4_arg5 (c : Dev nD) : W4 m ρ c (Proc.devRef .tc main_arg5) = X5 m c :=
  (W4_of_ne m ρ c main_arg5 (by decide)).trans (W3_arg5 m ρ c)

/-- The reference computes the normalisation again for its second layer: the same operations on the same edge
    lists, so the same edge weights and self weights. -/
theorem norm_again (x1 : IVec S2x800000 32) : Cert.ReferenceIdeal.Read.val_main_v82 (F := Ideal) x1 = Cert.ReferenceIdeal.Read.val_main_v32 (F := Ideal) x1 := rfl
theorem self_again (x1 : IVec S2x800000 32) : Cert.ReferenceIdeal.Read.val_main_v96 (F := Ideal) x1 = Cert.ReferenceIdeal.Read.val_main_v46 (F := Ideal) x1 := rfl

/-- The second aggregate: the reference's, over the second product. -/
theorem W5_agg (c : Dev nD) : W5 m ρ c (Proc.devRef .tc main_v68)
    = Cert.ReferenceIdeal.Read.val_main_v100 (F := Ideal) (X0 m c) (X1 m c) (X2 m c) (X3 m c) (X4 m c) := by
  show StableHlo.after hostOps2 (W4 m ρ c) (Proc.devRef .tc main_v68) = _
  after_results_simp
  rw [W4_proj, W4_src, W4_dst, W4_norm, W4_self, ← norm_again, ← self_again]
  rfl

/-- The second bias as the one-row array the third call takes. -/
theorem W5_biasRow (c : Dev nD) : W5 m ρ c (Proc.devRef .tc main_v69) = shapeCast S1x64 (X5 m c) shapeCasts_S64_S1x64 := by
  show StableHlo.after hostOps2 (W4 m ρ c) (Proc.devRef .tc main_v69) = _
  after_results_simp
  rw [W4_arg5]
  rfl

/-- Its one row is the bias. -/
theorem W5_bias (c : Dev nD) :
    (fun j : S64.Idx => (W5 m ρ c (Proc.devRef .tc main_v69) : S1x64.Idx → EReal) (ix2 0 (j 0))) = X5 m c := by
  funext j
  obtain ⟨k, rfl⟩ : ∃ k : Fin 64, j = ix1 k := ⟨j 0, eq_ix1 j⟩
  rw [W5_biasRow]
  exact shapeCast_a_1a_apply (X5 m c) shapeCasts_S64_S1x64 0 k

/-! ## The third call: the result -/

/-- After the third call the result array holds the reference's result. -/
theorem result_eq (c : Dev nD) : W6 m ρ c (Proc.devRef .tc main_v70)
    = Cert.ReferenceIdeal.Read.val_main_v114 (F := Ideal) (X0 m c) (X1 m c) (X2 m c) (X3 m c) (X4 m c) (X5 m c) := by
  refine (W6_arr m ρ c 2).trans ((region2_value (V5 m ρ) c).trans ?_)
  show biasSoftmax (W5 m ρ c (Proc.devRef .tc main_v68))
      (fun j : S64.Idx => (W5 m ρ c (Proc.devRef .tc main_v69) : S1x64.Idx → EReal) (ix2 0 (j 0))) = _
  rw [W5_agg, W5_bias]
  exact (Cert.ReferenceIdeal.Hand.ref_biasSoftmax _ _ _ _ _ _).symm

end Cert.KernelIdeal.Hand

end
-- ==== Proof.lean ====
/-
  A two-layer graph convolution over 50000 nodes and 800000 edges, followed by a row-wise softmax:
      out = softmax (Â (relu (Â (relu x · W1) + b1) · W2) + b2),
  where Â h = scatter-add over the edges, by destination, of the normalised source rows of h, plus the normalised
  self term, the normalisation being the reciprocal square roots of the in-degrees plus one.

  The program runs the three dense stages — relu x · W1, relu (a + b1) · W2, softmax (z + b2) — as three calls, each
  on a grid of ten blocks of 5000 rows, and leaves the edge-indexed aggregation Â to the host; the reference is the
  same composition written with whole-array operations. On the extended reals the two agree stage by stage:

  * each call's result array is ONE function of the arrays the call finds — the ten row blocks tile it, and a block's
    entry is the same sum (a row against a column; a row's exponentials over their total) whichever block holds
    the row;
  * the reference's two matrix products and its softmax, read at an entry, are those same functions;
  * every host operation between the calls is the reference's own operation on the same operands, so the
    aggregation chains are matched, never opened.

  No law of the extended reals beyond reading both sides entry by entry is used: the sums are the same sums in the
  same order of operands, so the finiteness of the inputs is never consulted. The ideal pass rewrote nothing, so the
  program read on the extended reals is its own idealization.
-/
import proofs.«142240_j41059887350098_1_alg».proof.Defs
import proofs.«142240_j41059887350098_1_alg».proof.Proof.Gen.Kernel
import proofs.«142240_j41059887350098_1_alg».proof.Proof.Gen.Kernel.Frame
import proofs.«142240_j41059887350098_1_alg».proof.Proof.Gen.KernelIdeal
import proofs.«142240_j41059887350098_1_alg».proof.Proof.Gen.KernelIdeal.Frame
import proofs.«142240_j41059887350098_1_alg».proof.Proof.Gen.ReferenceIdeal
import proofs.«142240_j41059887350098_1_alg».proof.Proof.Gen.ReferenceIdeal.Run
import proofs.«142240_j41059887350098_1_alg».proof.Proof.Gen.ReferenceIdeal.Read
import proofs.«142240_j41059887350098_1_alg».proof.Proof.Gen.Pre_finite_inputs
import proofs.«142240_j41059887350098_1_alg».proof.Proof.KernelRun
import proofs.«142240_j41059887350098_1_alg».proof.Proof.HostValues
import Idealize.ShloMosaic.Adequacy
import Idealize.ShloMosaic.Init

noncomputable section

namespace Cert.Proof

open Idealize.ShloMosaic Idealize.ShloMosaic.TcCoe Idealize.SL.Sem

/-- The program as printed runs to the end without a fault and leaves its arguments as launched. -/
theorem frame_k : Cert.frame_Kernel := fun m ρ _ => Cert.Kernel.Gen.frame m ρ

/-- So does the program read on the extended reals. -/
theorem frame_ki : Cert.frame_KernelIdeal := fun m ρ _ => Cert.KernelIdeal.Gen.frame m ρ

/-- So does the reference: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories that agree on the six arguments both programs end with the same result array: the reference's
    last stage of those arguments. The program's run leaves it there stage by stage (`result_eq`); the reference's
    run states it. -/
theorem algebraic : Cert.algebraic_KernelIdeal_ReferenceIdeal := by
  intro m ρ m' ρ' _ hagree
  refine ⟨fun c => Cert.ReferenceIdeal.Read.val_main_v114 (F := Ideal)
      (Cert.KernelIdeal.Hand.X0 m c) (Cert.KernelIdeal.Hand.X1 m c) (Cert.KernelIdeal.Hand.X2 m c)
      (Cert.KernelIdeal.Hand.X3 m c) (Cert.KernelIdeal.Hand.X4 m c) (Cert.KernelIdeal.Hand.X5 m c), ?_, ?_⟩
  · exact (θ_run Cert.KernelIdeal.defs _ _).mono
      (fun r h c => ⟨(h c).1.trans (Cert.KernelIdeal.Hand.result_eq m ρ c), (h c).2⟩)
      (Cert.KernelIdeal.GenP.run_result (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v114_eq, (hagree c).1, (hagree c).2.1, (hagree c).2.2.1,
      (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
